-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x128 : Shape := ⟨3, ![32, 8192, 128]⟩
abbrev S128x128 : Shape := ⟨2, ![128, 128]⟩
abbrev S128 : Shape := ⟨1, ![128]⟩
abbrev S_ : Shape := ⟨0, ![]⟩

class Facts : Prop where
  bcast_S_S32x8192x128 : S_.BroadcastsInDim S32x8192x128 (![] : Fin 0 → Fin S32x8192x128.rank)
  reducesTo_S32x8192x128_S_d0_1_2 : S32x8192x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x8192x128 .f32) (main_arg1 : FVec F S128x128 .f32) (main_arg2 : FVec F S128x128 .f32) (main_arg3 : FVec F S128 .f32) : IVec S_ 1 :=
  let main_v0 : FVec F S32x8192x128 .f32 := Host.absf main_arg0
  let main_cst : FVec F S_ .f32 := constant S_ .f32 0x7F800000#32
  let main_v1 : FVec F S32x8192x128 .f32 := broadcastInDim S32x8192x128 ![] bcast_S_S32x8192x128 main_cst
  let main_v2 : IVec S32x8192x128 1 := cmpf .olt main_v0 main_v1
  let main_c : IVec S_ 1 := constantI S_ 1 1#1
  let main_v3 : IVec S_ 1 := (fun x v => Host.reduce IntOp.andi x v reducesTo_S32x8192x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x8192x128 : Shape := ⟨3, ![32, 8192, 128]⟩
abbrev S128x128 : Shape := ⟨2, ![128, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S262144x128 : Shape := ⟨2, ![262144, 128]⟩
abbrev S4096x128 : Shape := ⟨2, ![4096, 128]⟩

abbrev nBuf : Space → Nat
  | .hbm => 27
  | .vmem => 6
  | .smem => 0
  | _ => 0

abbrev bufTy : (tb : Table) → Fin (tcTables nBuf tb) → BufTy
  | .hbm, ⟨0, _⟩ => ⟨S32x8192x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S_, .f32⟩
  | .hbm, ⟨9, _⟩ => ⟨S128x1, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .i1⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .i1⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S1x128, .f32⟩
  | .hbm, ⟨23, _⟩ => ⟨S1x128, .f32⟩
  | .hbm, ⟨24, _⟩ => ⟨S262144x128, .f32⟩
  | .hbm, ⟨25, _⟩ => ⟨S262144x128, .f32⟩
  | .hbm, ⟨26, _⟩ => ⟨S32x8192x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | _, _ => ⟨S32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  transposes_S128x128_S128x128_1_0 : S128x128.Transposes [1, 0] S128x128
  shapeCasts_S128_S1x128 : S128.ShapeCasts S1x128
  shapeCasts_S32x8192x128_S262144x128 : S32x8192x128.ShapeCasts S262144x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S262144x128_S32x8192x128 : S262144x128.ShapeCasts S32x8192x128
  dot_S128x128_S128x128_S128x128_1_0_0_1_n_n_wf : DotDims.WF S128x128 S128x128 S128x128 [1] [0] [0] [1] [] []
  dot_S1x128_S128x128_S1x128_1_0_0_1_n_n_wf : DotDims.WF S1x128 S128x128 S1x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S262144x128.size a
  hwx0_3 : ∀ i : grid0.Coords, EltTy.bits .f32 = 32 ∨ (Rect.block (s := S262144x128) S4096x128.size (cc0_transform_3 i) (hinb0_3 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v13) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192x128 : Shape := ⟨3, ![32, 8192, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S128x1 : Shape := ⟨2, ![128, 1]⟩

abbrev nBuf : Space → Nat
  | .hbm => 25
  | .vmem => 0
  | .smem => 0
  | _ => 0

abbrev bufTy : (tb : Table) → Fin (tcTables nBuf tb) → BufTy
  | .hbm, ⟨0, _⟩ => ⟨S32x8192x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S32x8192x128, .f32⟩
  | .hbm, ⟨5, _⟩ => ⟨S1x1x128, .f32⟩
  | .hbm, ⟨6, _⟩ => ⟨S32x8192x128, .f32⟩
  | .hbm, ⟨7, _⟩ => ⟨S32x8192x128, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .i1⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S128x128, .f32⟩
  | .hbm, ⟨24, _⟩ => ⟨S32x8192x128, .f32⟩
  | _, _ => ⟨S32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x8192x128_0_1_2 : S1x1x128.BroadcastsInDim S32x8192x128 (![0, 1, 2] : Fin 3 → Fin S32x8192x128.rank)
  reducesTo_S128x128_S128_d1 : S128x128.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x128_0_1 : S128x1.BroadcastsInDim S128x128 (![0, 1] : Fin 2 → Fin S128x128.rank)
  bcast_S_S128x128 : S_.BroadcastsInDim S128x128 (![] : Fin 0 → Fin S128x128.rank)
  dot_S32x8192x128_S128x128_S32x8192x128_2_1_01_0_n_n_wf : DotDims.WF S32x8192x128 S128x128 S32x8192x128 [2] [1] [0, 1] [0] [] []
  dot_S32x8192x128_S128x128_S32x8192x128_2_0_01_1_n_n_wf : DotDims.WF S32x8192x128 S128x128 S32x8192x128 [2] [0] [0, 1] [1] [] []

variable [Facts₀]

def dot_S32x8192x128_S128x128_S32x8192x128_2_1_01_0_n_n : DotDims S32x8192x128 S128x128 S32x8192x128 where
  lhsContracting := [2]
  rhsContracting := [1]
  lhsNonContracting := [0, 1]
  rhsNonContracting := [0]
  lhsBatch := []
  rhsBatch := []
  wf := dot_S32x8192x128_S128x128_S32x8192x128_2_1_01_0_n_n_wf
def dot_S32x8192x128_S128x128_S32x8192x128_2_0_01_1_n_n : DotDims S32x8192x128 S128x128 S32x8192x128 where
  lhsContracting := [2]
  rhsContracting := [0]
  lhsNonContracting := [0, 1]
  rhsNonContracting := [1]
  lhsBatch := []
  rhsBatch := []
  wf := dot_S32x8192x128_S128x128_S32x8192x128_2_0_01_1_n_n_wf

class Facts : Prop extends Facts₀ where

variable [Facts]
-- ==== Proof.FoldLaw.lean ====
import Idealize.ShloMosaic.PureOps.Ideal
import Idealize.ShloMosaic.Lib.ValueIdx

/-!
  The algebra that joins the two programs. A row `x` of the input is first projected by a weight matrix `W` with a bias
  `b` and then aggregated through a column `n` of the normalised graph:
  `∑ k, ((∑ f, x f · W k f) + b k) · n k`. Because both steps are linear, the matrix and the bias can be aggregated first
  and the row applied once: `(∑ f, x f · ∑ k, W k f · n k) + ∑ k, b k · n k`. Over the reals the two are equal by
  distributivity and an exchange of the two sums; on the extended reals distributivity fails at the infinities, so the
  law is stated for families all of whose entries are real numbers.
-/

open scoped BigOperators

noncomputable section

namespace Cert.FoldLaw

open Idealize.ShloMosaic Idealize.ShloMosaic.ValueIdx

/-- Every entry of the family is a real number (neither infinity). -/
def IsReal {ι : Type} (f : ι → EReal) : Prop := ∀ i, ∃ r : ℝ, f i = (r : EReal)

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is real. -/
theorem isReal_sum {ι κ : Type} [Fintype κ] (f : ι → κ → EReal) (h : ∀ i, IsReal (f i)) : IsReal fun i => ∑ k, f i k := by
  intro i
  choose g hg using h i
  exact ⟨∑ k, g k, by rw [coe_sum]; exact Finset.sum_congr rfl fun k _ => hg k⟩

/-- The law over the reals: distributivity, then the two sums exchanged. -/
theorem real_law {K : Nat} (x b n : Fin K → ℝ) (W : Fin K → Fin K → ℝ) :
    (∑ f, x f * ∑ k, W k f * n k) + ∑ k, b k * n k = ∑ k, ((∑ f, x f * W k f) + b k) * n k := by
  simp only [add_mul, Finset.sum_add_distrib, Finset.sum_mul, Finset.mul_sum]
  congr 1
  rw [Finset.sum_comm]
  refine Finset.sum_congr rfl fun k _ => Finset.sum_congr rfl fun f _ => ?_
  ring

/-- The law on the extended reals, for real entries. -/
theorem ereal_law {K : Nat} (x b n : Fin K → EReal) (W : Fin K → Fin K → EReal)
    (hx : IsReal x) (hb : IsReal b) (hn : IsReal n) (hW : ∀ k, IsReal (W k)) :
    (∑ f, x f * ∑ k, W k f * n k) + ∑ k, b k * n k = ∑ k, ((∑ f, x f * W k f) + b k) * n k := by
  choose xr hxr using hx
  choose br hbr using hb
  choose nr hnr using hn
  choose Wr hWr using hW
  simp only [hxr, hbr, hnr, hWr, ← EReal.coe_mul, ← coe_sum, ← EReal.coe_add]
  exact congrArg _ (real_law xr br nr Wr)

/-! ## The two programs' results as functions of the argument arrays -/

abbrev SH : Shape := ⟨3, ![32, 8192, 128]⟩
abbrev SM : Shape := ⟨2, ![128, 128]⟩
abbrev SV : Shape := ⟨1, ![128]⟩

/-- Project each row by `W` and `b`, then aggregate through the normalised graph `n`. -/
def aggregated (x : SH.Idx → EReal) (W : SM.Idx → EReal) (b : SV.Idx → EReal) (n : SM.Idx → EReal) : SH.Idx → EReal :=
  fun i => ∑ k : Fin 128, ((∑ f : Fin 128, x (ix3 (i 0) (i 1) f) * W (ix2 k f)) + b (ix1 k)) * n (ix2 k (i 2))

/-- Aggregate the matrix and the bias through `n` first, then apply each row once. -/
def folded (x : SH.Idx → EReal) (W : SM.Idx → EReal) (b : SV.Idx → EReal) (n : SM.Idx → EReal) : SH.Idx → EReal :=
  fun i => (∑ f : Fin 128, x (ix3 (i 0) (i 1) f) * ∑ k : Fin 128, W (ix2 k f) * n (ix2 k (i 2))) + ∑ k : Fin 128, b (ix1 k) * n (ix2 k (i 2))

/-- For real entries the two are one function. -/
theorem folded_eq_aggregated (x : SH.Idx → EReal) (W : SM.Idx → EReal) (b : SV.Idx → EReal) (n : SM.Idx → EReal)
    (hx : IsReal x) (hW : IsReal W) (hb : IsReal b) (hn : IsReal n) : folded x W b n = aggregated x W b n := by
  funext i
  exact ereal_law (fun f => x (ix3 (i 0) (i 1) f)) (fun k => b (ix1 k)) (fun k => n (ix2 k (i 2))) (fun k f => W (ix2 k f))
    (fun f => hx _) (fun k => hb _) (fun k => hn _) (fun k f => hW _)

end Cert.FoldLaw

end
-- ==== Proof.Scalars.lean ====
import Idealize.ShloMosaic.PureOps.Ideal
import Idealize.ShloMosaic.PureOps.Ideal.Laws

/-!
  The two float literals the programs compare against, read at the ideal values: the pattern of +∞, and the small
  positive threshold 1e-10 (as its binary value, a positive real).
-/

namespace Cert.Scalars

open Idealize.ShloMosaic

/-- The pattern `0x7F800000` is +∞. -/
theorem inf_word : Ideal.ofBits .f32 0x7F800000#32 = (⊤ : EReal) := by
  simp [Ideal.ofBits, Ideal.ieee]

/-- The pattern `0x2EDBE6FF` (the float nearest 1e-10) is a positive real. -/
theorem eps_word : ∃ e : ℝ, 0 < e ∧ Ideal.ofBits .f32 0x2EDBE6FF#32 = (e : EReal) := by
  refine ⟨_, ?_, by simp [Ideal.ofBits, Ideal.ieee]; rfl⟩
  positivity

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

end Cert.Scalars
-- ==== Proof.Finite.lean ====
import proofs.«115806_j42588895707817_1_alg».proof.Pre_finite_inputs
import proofs.«115806_j42588895707817_1_alg».proof.Proof.FoldLaw
import proofs.«115806_j42588895707817_1_alg».proof.Proof.Scalars
import Idealize.ShloMosaic.Lib.ReduceAll
import Idealize.ShloMosaic.Lib.ValueIdx

/-!
  What the precondition says at the ideal values. The predicate is the conjunction, over the four argument arrays, of
  "every entry's absolute value is below +∞"; where it is all ones, every entry of every argument is a real number.
-/

namespace Cert.Finite

open Idealize.ShloMosaic Cert.Pre_finite_inputs Cert.FoldLaw

instance : Subsingleton S_.Idx := ⟨fun _ _ => funext fun d => d.elim0⟩

variable [Cert.Pre_finite_inputs.Facts]

/-- One array: if the conjunction over all its entries of `|a i| < +∞` is one, every entry is real. -/
theorem isReal_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (h : Host.reduce IntOp.andi (cmpf .olt (Host.absf a) (broadcastInDim s ![] hb (constant (F := Ideal) S_ .f32 0x7F800000#32))) init hr hu ValueIdx.ix0 = 1#1) :
    IsReal a := by
  intro i
  have hi : Ideal.cmp .olt (max (a i) (-(a i))) (Ideal.ofBits .f32 0x7F800000#32) = 1#1 :=
    Host.reduce_andi_all _ init hr hu ValueIdx.ix0 h i
  rw [Scalars.inf_word] at hi
  have hlt : max (a i) (-(a i)) < ⊤ := by
    by_contra hc
    simp [Ideal.cmp, hc] at hi
  exact Scalars.real_of_abs_lt_top _ hlt

/-- The precondition all ones: every entry of each of the four arguments is a real number. -/
theorem reals_of_pre (a0 : FVec Ideal S32x8192x128 .f32) (a1 a2 : FVec Ideal S128x128 .f32) (a3 : FVec Ideal S128 .f32)
    (h : fn (F := Ideal) a0 a1 a2 a3 = fun _ => 1#1) : IsReal a0 ∧ IsReal a1 ∧ IsReal a2 ∧ IsReal a3 := by
  have h0 := congrFun h ValueIdx.ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨isReal_of_all a0 _ _ _ _ h0', isReal_of_all a1 _ _ _ _ h1, isReal_of_all a2 _ _ _ _ h2, isReal_of_all a3 _ _ _ _ h3⟩

end Cert.Finite
-- ==== Proof.NormGraph.lean ====
import proofs.«115806_j42588895707817_1_alg».proof.Proof.Gen.ReferenceIdeal.Read
import proofs.«115806_j42588895707817_1_alg».proof.Proof.FoldLaw
import proofs.«115806_j42588895707817_1_alg».proof.Proof.Scalars

/-!
  The normalised graph. Both programs compute it by the same host operations from the graph `g`: the degree of row `k`
  is `d k = max ε (0 + ∑ j, g (k, j))` with `ε` the positive threshold, and the entry `(k, j)` is `g (k, j) / d k` where
  `d k > ε` and `0` elsewhere. For a real graph every degree is a positive real, so every quotient is real: the
  normalised graph is real.
-/

open scoped BigOperators

namespace Cert.NormGraph

open Idealize.ShloMosaic Cert.ReferenceIdeal Cert.ReferenceIdeal.Read Cert.FoldLaw

/-- A row sum of a real graph is real. -/
theorem rowSum_real (g : FVec Ideal S128x128 .f32) (hg : IsReal g) (j : S128.Idx) :
    ∃ s : ℝ, val_main_v4 (F := Ideal) g j = (s : EReal) := by
  choose gr hgr using hg
  refine ⟨∑ k, gr (idx_main_v4 j k), ?_⟩
  rw [val_main_v4_apply, val_main_cst_apply, Ideal.ofBits_def, Ideal.ofBits_zero_f32, zero_add, coe_sum]
  exact Finset.sum_congr rfl fun k _ => hgr _

/-- A degree of a real graph is a positive real: the larger of the threshold and the row sum. -/
theorem degree_pos_real (g : FVec Ideal S128x128 .f32) (hg : IsReal g) (j : S128x1.Idx) :
    ∃ d : ℝ, 0 < d ∧ val_main_v6 (F := Ideal) g j = (d : EReal) := by
  obtain ⟨e, he, hew⟩ := Scalars.eps_word
  obtain ⟨s, hs⟩ := rowSum_real g hg (idx_main_v5 j)
  refine ⟨max e s, lt_max_of_lt_left he, ?_⟩
  rw [val_main_v6_apply, val_main_call0_v1_apply, val_main_call0_v0_apply, val_main_cst_0_apply, val_main_v5_apply, hs,
    Ideal.maximumf_def, Ideal.ofBits_def, hew]
  exact (EReal.coe_strictMono.monotone.map_max (a := e) (b := s)).symm

/-- The normalised graph of a real graph is real. -/
theorem normGraph_real (g : FVec Ideal S128x128 .f32) (hg : IsReal g) : IsReal (val_main_v12 (F := Ideal) g) := by
  intro i
  obtain ⟨d, hd, hdw⟩ := degree_pos_real g hg (idx_main_v9 i)
  obtain ⟨r, hr⟩ := hg i
  rw [val_main_v12_apply]
  unfold Scalar.select
  split
  · refine ⟨r * (1 / d), ?_⟩
    rw [val_main_v10_apply, val_main_v9_apply, hdw, hr, Ideal.hostDivf_def, Ideal.div_coe hd.ne', EReal.coe_mul]
  · refine ⟨0, ?_⟩
    rw [val_main_v11_apply, val_main_cst_2_apply, Ideal.ofBits_def, Ideal.ofBits_zero_f32]
    rfl

end Cert.NormGraph
-- ==== Proof.RefValue.lean ====
import proofs.«115806_j42588895707817_1_alg».proof.Proof.Gen.ReferenceIdeal.Read
import proofs.«115806_j42588895707817_1_alg».proof.Proof.FoldLaw
import Idealize.ShloMosaic.Lib.ValueIdx

/-!
  The reference's result, read at an entry. Its last operation contracts the projected messages with the normalised graph
  over the hidden axis: entry `(i0, i1, i2)` is `∑ k, msg (i0, i1, k) · n (k, i2)`, and a message is
  `msg (i0, i1, k) = (∑ f, h (i0, i1, f) · W (k, f)) + b k`: the projection by `W` over the feature axis plus the bias
  broadcast along the two leading axes. That is the project-then-aggregate form of the law.
-/

open scoped BigOperators

namespace Cert.RefValue

open Idealize.ShloMosaic Idealize.ShloMosaic.ValueIdx Cert.ReferenceIdeal Cert.ReferenceIdeal.Read Cert.FoldLaw

/-- The reference's result is the projected-then-aggregated function of its arguments, through its own normalised graph. -/
theorem result_eq (h : FVec Ideal S32x8192x128 .f32) (g W : FVec Ideal S128x128 .f32) (b : FVec Ideal S128 .f32) :
    val_main_v13 (F := Ideal) h g W b = aggregated h W b (val_main_v12 (F := Ideal) g) := by
  funext i
  have e1 : ∀ (k f : Fin 128), lidx_main_v0 (lidx_main_v13 i k) f = ix3 (i 0) (i 1) f := fun k f =>
    funext fun a => Fin.ext (by match a with | ⟨0, _⟩ => rfl | ⟨1, _⟩ => rfl | ⟨2, _⟩ => rfl)
  have e2 : ∀ (k f : Fin 128), ridx_main_v0 (lidx_main_v13 i k) f = ix2 k f := fun k f =>
    funext fun a => Fin.ext (by match a with | ⟨0, _⟩ => rfl | ⟨1, _⟩ => rfl)
  have e3 : ∀ k : Fin 128, ridx_main_v13 i k = ix2 k (i 2) := fun k =>
    funext fun a => Fin.ext (by match a with | ⟨0, _⟩ => rfl | ⟨1, _⟩ => rfl)
  have e4 : ∀ k : Fin 128, idx_main_v1 (idx_main_v2 (lidx_main_v13 i k)) = ix1 k := fun k =>
    funext fun a => Fin.ext (by match a with | ⟨0, _⟩ => rfl)
  rw [val_main_v13_apply]
  unfold aggregated
  refine Finset.sum_congr rfl fun k _ => ?_
  rw [val_main_v3_apply, val_main_v0_apply, val_main_v2_apply, val_main_v1_apply, e3, e4]
  simp only [e1, e2]
  rfl

end Cert.RefValue
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KernelBody.lean ====
import proofs.«115806_j42588895707817_1_alg».proof.Proof.Gen.KernelIdeal.Skeleton
import proofs.«115806_j42588895707817_1_alg».proof.Proof.LibPlainDot
import Idealize.ShloMosaic.Lib.Pipeline.Value
import Idealize.ShloMosaic.Lib.ValueIdx

/-!
  What the kernel body stores, read at an entry. The body loads a block `x` of 4096 rows of the reshaped input, the
  whole effective matrix `w` and the effective bias row `b`, and stores `x · w + b`: entry `(p, q)` of the stored block is
  `(∑ k, x (p, k) · w (k, q)) + b (0, q)`. The casts of `x` and `w` to bf16 are the identity at the ideal values, the
  matrix product into the zero accumulator is the plain sum, and the bias row is broadcast down the rows.
-/

open scoped BigOperators

namespace Cert.KernelBody

open Idealize.ShloMosaic Idealize.ShloMosaic.ValueIdx Cert.KernelIdeal Cert.KernelIdeal.Gen

/-- The bias row broadcast down the 4096 rows, read at `(p, q)`, is the row's entry `q`. -/
theorem bias_apply (b : Vec Ideal S1x128 .f32) (p : Fin 4096) (q : Fin 128) :
    broadcastTo S4096x128 (shapeCast S1x128 b shapeCasts_S1x128_S1x128) broadcasts_S1x128_S4096x128 (ix2 p q) = b (ix2 0 q) := by
  rw [shapeCast_self]
  exact broadcastTo_apply b _ (ix2 p q) (ix2 0 q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

/-- The stored block at `(p, q)`: the row of `x` against the column of `w`, plus the bias entry. -/
theorem stored_apply (x : Vec Ideal S4096x128 .f32) (w : Vec Ideal S128x128 .f32) (b : Vec Ideal S1x128 .f32)
    (p : Fin 4096) (q : Fin 128) :
    k0_pay1 (F := Ideal) x w b (ix2 p q) = (∑ k : Fin 128, x (ix2 p k) * w (ix2 k q)) + b (ix2 0 q) := by
  unfold k0_pay1
  rw [addf_apply, bias_apply]
  refine congrArg (· + b (ix2 0 q)) ?_
  rw [shapeCast_self, shapeCast_self]
  exact Cert.Lib.PlainDot.matmul_zero_apply dot_S4096x128_S128x128_S4096x128_1_0_0_1_n_n rfl rfl rfl rfl rfl rfl none
    (truncf .bf16 x bitsLt_bf16_f32) (truncf .bf16 w bitsLt_bf16_f32) p q

end Cert.KernelBody
-- ==== Proof.KernelHost.lean ====
import proofs.«115806_j42588895707817_1_alg».proof.Proof.Gen.KernelIdeal.Frame
import proofs.«115806_j42588895707817_1_alg».proof.Proof.Gen.ReferenceIdeal.Read
import proofs.«115806_j42588895707817_1_alg».proof.Proof.LibPlainDot
import Idealize.ShloMosaic.Lib.StableHlo.Run
import Idealize.ShloMosaic.Lib.Pipeline.Value
import Idealize.ShloMosaic.Lib.ValueIdx

/-!
  What the kernel program's host operations leave in the three arrays the region reads, at the ideal values, as
  functions of the arguments `h`, `g` (the graph), `W` and `b`:
  * the input flattened to 262144 rows: row `r`, column `f` is `h (r / 8192, r % 8192, f)`;
  * the effective matrix: entry `(f, q)` is `∑ k, W (k, f) · n (k, q)` — the transposed weights against the normalised
    graph `n`;
  * the effective bias row: entry `(0, q)` is `∑ k, b k · n (k, q)`.
  The normalised graph is computed by the same operations as in the reference, and is that program's term of `g`.
-/

open scoped BigOperators

noncomputable section

namespace Cert.KernelHost

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The four argument arrays, at their literal types. -/
abbrev argH (c : Dev nD) : Vec Ideal S32x8192x128 .f32 := m ((c : Thread nD τ).loc main_arg0)
abbrev argG (c : Dev nD) : Vec Ideal S128x128 .f32 := m ((c : Thread nD τ).loc main_arg1)
abbrev argW (c : Dev nD) : Vec Ideal S128x128 .f32 := m ((c : Thread nD τ).loc main_arg2)
abbrev argB (c : Dev nD) : Vec Ideal S128 .f32 := m ((c : Thread nD τ).loc main_arg3)

/-- The normalised graph, as the reference program's term of the graph argument. -/
abbrev normGraph (c : Dev nD) : Vec Ideal S128x128 .f32 :=
  Cert.ReferenceIdeal.Read.val_main_v12 (F := Ideal) (argG m c)

/-- The three arrays the region reads, as it finds them. -/
abbrev rowsArr (c : Dev nD) : Vec Ideal S262144x128 .f32 := V m c main_v13
abbrev effW (c : Dev nD) : Vec Ideal S128x128 .f32 := V m c main_v10
abbrev effB (c : Dev nD) : Vec Ideal S1x128 .f32 := V m c main_v12

/-- The flattened input is the reshape of `h`. -/
theorem rowsArr_eq (c : Dev nD) :
    rowsArr m c = shapeCast S262144x128 (argH m c) shapeCasts_S32x8192x128_S262144x128 := by
  show V m c main_v13 = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The effective matrix is the product of the transposed weights with the normalised graph. -/
theorem effW_eq (c : Dev nD) :
    effW m c = Host.dotGeneral (F := Ideal) (φ₁ := .f32) (φ₂ := .f32) dot_S128x128_S128x128_S128x128_1_0_0_1_n_n none
      (transpose S128x128 [1, 0] (argW m c) transposes_S128x128_S128x128_1_0) (normGraph m c) := by
  show V m c main_v10 = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The effective bias row is the product of the bias, as one row, with the normalised graph. -/
theorem effB_eq (c : Dev nD) :
    effB m c = Host.dotGeneral (F := Ideal) (φ₁ := .f32) (φ₂ := .f32) dot_S1x128_S128x128_S1x128_1_0_0_1_n_n none
      (shapeCast S1x128 (argB m c) shapeCasts_S128_S1x128) (normGraph m c) := by
  show V m c main_v12 = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Row `i0 · 8192 + i1` of the flattened input is row `(i0, i1)` of `h`. -/
theorem rowsArr_apply (c : Dev nD) (i0 : Fin 32) (i1 : Fin 8192) (f : Fin 128) :
    rowsArr m c (ix2 ⟨i0.val * 8192 + i1.val, by omega⟩ f) = argH m c (ix3 i0 i1 f) := by
  rw [rowsArr_eq]
  exact shapeCast_apply _ _ _ (ix3 i0 i1 f) (by
    rw [Shape.rowMajor_val_three, Shape.rowMajor_val_two]
    show (i0.val * 8192 + i1.val) * 128 + f.val = (i0.val * 8192 + i1.val) * 128 + f.val
    rfl)

/-- The effective matrix at `(f, q)`. -/
theorem effW_apply (c : Dev nD) (f q : Fin 128) :
    effW m c (ix2 f q) = ∑ k : Fin 128, argW m c (ix2 k f) * normGraph m c (ix2 k q) := by
  rw [effW_eq]
  simp only [Host.dotGeneral]
  rw [Cert.Lib.PlainDot.dotGeneral_apply dot_S128x128_S128x128_S128x128_1_0_0_1_n_n rfl rfl rfl rfl rfl rfl]
  refine Finset.sum_congr rfl fun k _ => congrArg (· * _) ?_
  exact transpose_apply _ _ _ (ix2 f k) (ix2 k f) (fun a => match a with
    | ⟨0, _⟩ => rfl
    | ⟨1, _⟩ => rfl)

/-- The effective bias at `(0, q)`. -/
theorem effB_apply (c : Dev nD) (q : Fin 128) :
    effB m c (ix2 0 q) = ∑ k : Fin 128, argB m c (ix1 k) * normGraph m c (ix2 k q) := by
  rw [effB_eq]
  simp only [Host.dotGeneral]
  rw [Cert.Lib.PlainDot.dotGeneral_apply dot_S1x128_S128x128_S1x128_1_0_0_1_n_n rfl rfl rfl rfl rfl rfl]
  refine Finset.sum_congr rfl fun k _ => congrArg (· * _) ?_
  exact shapeCast_apply _ _ (ix2 0 k) (ix1 k) (by
    rw [Shape.rowMajor_val_one, Shape.rowMajor_val_two]
    show k.val = 0 * 128 + k.val
    omega)

end Cert.KernelHost

end
-- ==== Proof.KernelBlocks.lean ====
import proofs.«115806_j42588895707817_1_alg».proof.Proof.Gen.KernelIdeal.Frame
import proofs.«115806_j42588895707817_1_alg».proof.Proof.KernelBody
import proofs.«115806_j42588895707817_1_alg».proof.Proof.KernelHost
import Idealize.ShloMosaic.Lib.Pipeline.Value
import Idealize.ShloMosaic.Lib.ValueIdx

/-!
  From blocks to the whole array. The grid has 64 points; point `t` reads rows `4096·t … 4096·t + 4095` of the flattened
  input, the whole effective matrix and the whole effective bias row, and writes back rows `4096·t …` of the output.
  So what point `t` writes back is block `t` of ONE function of the three arrays — row `r`, column `q` of the output is
  `(∑ k, rows (r, k) · effW (k, q)) + effB (0, q)` —, the 64 blocks tile the 262144 rows, and the output array after the run
  is that function.
-/

set_option maxRecDepth 16384

open scoped BigOperators

noncomputable section

namespace Cert.KernelBlocks

open Idealize.ShloMosaic Idealize.ShloMosaic.TcCoe Idealize.ShloMosaic.ValueIdx Idealize.SL.Sem
open Idealize.ShloMosaic.Pipeline (Dat)
open Cert.KernelIdeal Cert.KernelIdeal.Gen Cert.KernelHost

variable (m : (ℓ : Loc nD τ sig) → Buf (Elt Ideal) ℓ)

/-- The rows of `A` against the matrix `Wm`, plus the row `B`. -/
def product (A : Vec Ideal S262144x128 .f32) (Wm : Vec Ideal S128x128 .f32) (B : Vec Ideal S1x128 .f32) :
    S262144x128.Idx → EReal :=
  fun j => (∑ k : Fin 128, A (ix2 (j 0) k) * Wm (ix2 k (j 1))) + B (ix2 0 (j 1))

theorem offsets_zero : (![0, 0] : Fin 2 → Nat) = fun _ => 0 := funext fun a => by fin_cases a <;> rfl

/-- The block indices at point `t`, decided over the grid: the input rows and the output rows move with `t`, the matrix
    and the bias row stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row `p` of point `t`'s block is row `4096·t + p` of the array. -/
def rowOf (t : Fin cfg0.N) (p : Fin 4096) : Fin 262144 := ⟨t.val * 4096 + p.val, by have := point_lt t; omega⟩

/-- The three input blocks at a point, at their literal types. -/
abbrev xblk (c : Dev nD) (t : Fin cfg0.N) : Vec Ideal S4096x128 .f32 := iblk m c 0 t
abbrev wblk (c : Dev nD) (t : Fin cfg0.N) : Vec Ideal S128x128 .f32 := iblk m c 1 t
abbrev bblk (c : Dev nD) (t : Fin cfg0.N) : Vec Ideal S1x128 .f32 := iblk m c 2 t

theorem xblk_apply (c : Dev nD) (t : Fin cfg0.N) (p : Fin 4096) (k : Fin 128) :
    xblk m c t (ix2 p k) = rowsArr m c (ix2 (rowOf t p) k) := by
  obtain ⟨e0, e1, -⟩ := block_indices t
  show V m c main_v13 (((cfg0.win 0).blk t).view.emb (ix2 p k)) = V m c main_v13 (ix2 (rowOf t p) k)
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 128 + 1 * k.val = k.val; omega

theorem wblk_apply (c : Dev nD) (t : Fin cfg0.N) (k q : Fin 128) :
    wblk m c t (ix2 k q) = effW m c (ix2 k q) := by
  obtain ⟨-, -, e2, e3, -⟩ := block_indices t
  show V m c main_v10 (((cfg0.win 1).blk t).view.emb (ix2 k q)) = V m c main_v10 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem bblk_apply (c : Dev nD) (t : Fin cfg0.N) (q : Fin 128) :
    bblk m c t (ix2 0 q) = effB m c (ix2 0 q) := by
  obtain ⟨-, -, -, -, e4, e5, -⟩ := block_indices t
  show V m c main_v12 (((cfg0.win 2).blk t).view.emb (ix2 0 q)) = V m c main_v12 (ix2 0 q)
  refine congrArg _ (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

/-- What point `t` writes back is block `t` of the product of the three arrays. -/
theorem flushed_eq (c : Dev nD) (t : Fin cfg0.N) :
    (dats m 0 c).flushed 3 t = ((cfg0.win 3).blk t).view.read (Elt Ideal) (product (rowsArr m c) (effW m c) (effB m c)) := by
  show (cfg0.win 3).cut (grid0.coords t) ((dats m 0 c).after 3 t) = _
  rw [after0_3]
  unfold out0_3
  rw [View.canon_unit_zero offsets_zero]
  simp only [View.ld_unit_zero (S := S4096x128) offsets_zero, View.ld_unit_zero (S := S128x128) offsets_zero,
    View.ld_unit_zero (S := S1x128) offsets_zero]
  funext j
  obtain ⟨p, q, rfl⟩ : ∃ (p : Fin 4096) (q : Fin 128), j = ix2 p q := ⟨j 0, j 1, eq_ix2 j⟩
  obtain ⟨-, -, -, -, -, -, e6, e7⟩ := block_indices t
  have hemb : ((cfg0.win 3).blk t).view.emb (ix2 p q) = ix2 (rowOf t p) q := funext fun a => Fin.ext (by
    match a with
    | ⟨0, _⟩ => show win0_3.index t (0 : Fin 2) * 4096 + 1 * p.val = t.val * 4096 + p.val; omega
    | ⟨1, _⟩ => show win0_3.index t (1 : Fin 2) * 128 + 1 * q.val = q.val; omega)
  show k0_pay1 (F := Ideal) (xblk m c t) (wblk m c t) (bblk m c t) (ix2 p q)
    = product (rowsArr m c) (effW m c) (effB m c) (((cfg0.win 3).blk t).view.emb (ix2 p q))
  rw [hemb, KernelBody.stored_apply, bblk_apply]
  show _ = (∑ k : Fin 128, rowsArr m c (ix2 (rowOf t p) k) * effW m c (ix2 k q)) + effB m c (ix2 0 q)
  refine congrArg (· + effB m c (ix2 0 q)) (Finset.sum_congr rfl fun k _ => ?_)
  rw [xblk_apply, wblk_apply]

/-- An index of the output array is in point `t`'s block iff each coordinate is in the block's range. -/
theorem mem_blk (t : Fin cfg0.N) (i : S262144x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v14).slice (win0_3.rect t)).set ↔ _
  rw [View.set_slice_whole, Rect.mem_set_unit]
  exact Iff.rfl

/-- Every row of the output is in the block of the point `row / 4096`. -/
theorem covered (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : (i 0).val / 4096 < cfg0.N := by
    show _ < grid0.N
    rw [N_0]; omega
  obtain ⟨-, -, -, -, -, -, e6, e7⟩ := block_indices ⟨(i 0).val / 4096, hN⟩
  refine ⟨⟨(i 0).val / 4096, hN⟩, flush0_3 _, ?_⟩
  rw [mem_blk]
  intro a
  match a with
  | ⟨0, _⟩ =>
    show win0_3.index ⟨(i 0).val / 4096, hN⟩ (0 : Fin 2) * 4096 ≤ (i 0).val
      ∧ (i 0).val < win0_3.index ⟨(i 0).val / 4096, hN⟩ (0 : Fin 2) * 4096 + 4096
    rw [e6]
    show (i 0).val / 4096 * 4096 ≤ (i 0).val ∧ (i 0).val < (i 0).val / 4096 * 4096 + 4096
    omega
  | ⟨1, _⟩ =>
    show win0_3.index ⟨(i 0).val / 4096, hN⟩ (1 : Fin 2) * 128 ≤ (i 1).val
      ∧ (i 1).val < win0_3.index ⟨(i 0).val / 4096, hN⟩ (1 : Fin 2) * 128 + 128
    omega

/-- The output array after the run is the product of the three arrays. -/
theorem final (c : Dev nD) : (dats m 0 c).arrAt 3 cfg0.N = product (rowsArr m c) (effW m c) (effB m c) :=
  (dats m 0 c).arrAt_eq_of_cover 3 _ (fun t _ => flushed_eq m c t) covered

end Cert.KernelBlocks

end
-- ==== Proof.KernelRun.lean ====
import proofs.«115806_j42588895707817_1_alg».proof.Proof.Gen.KernelIdeal.Frame
import proofs.«115806_j42588895707817_1_alg».proof.Proof.KernelBlocks
import proofs.«115806_j42588895707817_1_alg».proof.Proof.KernelHost
import proofs.«115806_j42588895707817_1_alg».proof.Proof.FoldLaw
import Idealize.ShloMosaic.Lib.StableHlo.Run
import Idealize.ShloMosaic.Lib.Pipeline.Value
import Idealize.ShloMosaic.Lib.ValueIdx

/-!
  The kernel program's result. After the region the one remaining host operation reshapes the 262144-row output back to
  `[32, 8192, 128]`: entry `(i0, i1, i2)` of the result is row `8192·i0 + i1`, column `i2` of the output array, that is
  `(∑ f, h (i0, i1, f) · effW (f, i2)) + effB (0, i2)`; with the effective matrix and bias read as sums over the hidden axis
  this is the aggregate-first form of the law, `folded`.
-/

set_option maxRecDepth 16384

open scoped BigOperators

noncomputable section

namespace Cert.KernelRun

open Idealize.ShloMosaic Idealize.ShloMosaic.TcCoe Idealize.ShloMosaic.ValueIdx Idealize.SL.Sem Idealize.ShloMosaic.StableHlo
open Cert.KernelIdeal Cert.KernelIdeal.Gen Cert.KernelHost Cert.KernelBlocks Cert.FoldLaw

variable (m : (ℓ : Loc nD τ sig) → Buf (Elt Ideal) ℓ) (ρ : Dev nD → PrngReg)

/-- The result buffer after the host tail is the reshape of the output array. -/
theorem tail_eq (c : Dev nD) :
    (Pipeline.afterTail₀ cfgs (dats m) 0 (V0 m) [hostOps1] c main_v15 : S32x8192x128.Idx → EReal)
      = shapeCast S32x8192x128 (product (rowsArr m c) (effW m c) (effB m c)) shapeCasts_S262144x128_S32x8192x128 := by
  have hw : Pipeline.withArrays (cfgs 0).spec c (V0 m c) (fun w => (dats m 0 c).arrAt w (cfgs 0).N) (Proc.devRef .tc main_v14)
      = product (rowsArr m c) (effW m c) (effB m c) :=
    (Pipeline.withArrays_arr spec0 launch0.win.arr_inj c (V0 m c) (fun w => (dats m 0 c).arrAt w cfg0.N) 3).trans (final m c)
  unfold Pipeline.afterTail₀
  show StableHlo.after hostOps1 _ (Proc.devRef .tc main_v15) = _
  after_results
  rw [hw]
  rfl

/-- The result at an entry is the aggregate-first function of the arguments. -/
theorem result_eq (c : Dev nD) :
    (Pipeline.afterTail₀ cfgs (dats m) 0 (V0 m) [hostOps1] c main_v15 : S32x8192x128.Idx → EReal)
      = folded (argH m c) (argW m c) (argB m c) (normGraph m c) := by
  rw [tail_eq]
  funext i
  obtain ⟨i0, i1, i2, rfl⟩ : ∃ (i0 : Fin 32) (i1 : Fin 8192) (i2 : Fin 128), i = ix3 i0 i1 i2 := ⟨i 0, i 1, i 2, eq_ix3 i⟩
  refine (shapeCast_apply _ _ (ix3 i0 i1 i2) (ix2 ⟨i0.val * 8192 + i1.val, by omega⟩ i2) (by
    rw [Shape.rowMajor_val_three, Shape.rowMajor_val_two]
    show (i0.val * 8192 + i1.val) * 128 + i2.val = (i0.val * 8192 + i1.val) * 128 + i2.val
    rfl)).trans ?_
  show (∑ k : Fin 128, rowsArr m c (ix2 ⟨i0.val * 8192 + i1.val, by omega⟩ k) * effW m c (ix2 k i2)) + effB m c (ix2 0 i2)
    = (∑ f : Fin 128, argH m c (ix3 i0 i1 f) * ∑ k : Fin 128, argW m c (ix2 k f) * normGraph m c (ix2 k i2))
      + ∑ k : Fin 128, argB m c (ix1 k) * normGraph m c (ix2 k i2)
  rw [effB_apply]
  refine congrArg (· + _) (Finset.sum_congr rfl fun f _ => ?_)
  rw [rowsArr_apply, effW_apply]

/-- The kernel program's run: it terminates with the result at the aggregate-first function of the arguments, which end
    unchanged. -/
theorem run : θ_run defs (onTc (τ := τ) (main (F := Ideal))) ⟨m, fun _ => 0, ρ⟩ fun r => ∀ c : Dev nD,
      r.2.mem ((c.tc : Thread nD τ).loc main_v15) = folded (argH m c) (argW m c) (argB m c) (normGraph m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelRun

end
-- ==== Proof.lean ====
/-
  The two programs compute one function of the arguments `h : [32, 8192, 128]`, the graph `g : [128, 128]`, the weights
  `W : [128, 128]` and the bias `b : [128]`, at the ideal values and for finite arguments.

  The reference projects every row, `msg (·, k) = (∑ f, h (·, f) · W (k, f)) + b k`, and aggregates through the
  row-normalised graph `n`: `out (·, q) = ∑ k, msg (·, k) · n (k, q)`. The kernel program aggregates first, on the host:
  the effective matrix `effW (f, q) = ∑ k, W (k, f) · n (k, q)` and the effective bias `effB q = ∑ k, b k · n (k, q)`; its
  one pallas_call then computes, 4096 rows at a point over a grid of 64 points, `out (r, q) = (∑ f, h (r, f) · effW (f, q))
  + effB q` on the input flattened to 262144 rows, and the result is reshaped back.

  The two are equal by distributivity and an exchange of sums (Proof/FoldLaw.lean). On the extended reals that law needs
  real entries: the precondition gives them for the four arguments (Proof/Finite.lean), and the normalised graph of a real
  graph is real because every degree is at least the positive threshold (Proof/NormGraph.lean; both programs compute `n`
  by the same operations, so it is one term). The kernel side is read off its frame run: the body's stored block at an
  entry (Proof/KernelBody.lean), the arrays the host operations prepare (Proof/KernelHost.lean), the 64 blocks tiling the
  output (Proof/KernelBlocks.lean), the reshape after the region (Proof/KernelRun.lean). The reference side is its run read
  one operation at a time (Proof/RefValue.lean). No operation of the kernel is rewritten in its idealization, so that claim is trivial.
-/
import proofs.«115806_j42588895707817_1_alg».proof.Defs
import proofs.«115806_j42588895707817_1_alg».proof.Proof.Gen.Kernel
import proofs.«115806_j42588895707817_1_alg».proof.Proof.Gen.Kernel.Skeleton
import proofs.«115806_j42588895707817_1_alg».proof.Proof.Gen.Kernel.Launch
import proofs.«115806_j42588895707817_1_alg».proof.Proof.Gen.Kernel.Points
import proofs.«115806_j42588895707817_1_alg».proof.Proof.Gen.Kernel.Frame
import proofs.«115806_j42588895707817_1_alg».proof.Proof.Gen.KernelIdeal
import proofs.«115806_j42588895707817_1_alg».proof.Proof.Gen.KernelIdeal.Skeleton
import proofs.«115806_j42588895707817_1_alg».proof.Proof.Gen.KernelIdeal.Launch
import proofs.«115806_j42588895707817_1_alg».proof.Proof.Gen.KernelIdeal.Points
import proofs.«115806_j42588895707817_1_alg».proof.Proof.Gen.KernelIdeal.Frame
import proofs.«115806_j42588895707817_1_alg».proof.Proof.Gen.ReferenceIdeal
import proofs.«115806_j42588895707817_1_alg».proof.Proof.Gen.Pre_finite_inputs
import proofs.«115806_j42588895707817_1_alg».proof.Proof.Gen.ReferenceIdeal.Run
import proofs.«115806_j42588895707817_1_alg».proof.Proof.Gen.ReferenceIdeal.Read
import proofs.«115806_j42588895707817_1_alg».proof.Proof.FoldLaw
import proofs.«115806_j42588895707817_1_alg».proof.Proof.Finite
import proofs.«115806_j42588895707817_1_alg».proof.Proof.NormGraph
import proofs.«115806_j42588895707817_1_alg».proof.Proof.RefValue
import proofs.«115806_j42588895707817_1_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the aggregate-first function of the arguments: the kernel program by its run, the
    reference because its project-then-aggregate result is that function for real arguments. -/
theorem algebraic : Cert.algebraic_KernelIdeal_ReferenceIdeal := by
  intro m ρ m' ρ' hpre hagree
  refine ⟨fun c => Cert.FoldLaw.folded (Cert.KernelHost.argH m c) (Cert.KernelHost.argW m c) (Cert.KernelHost.argB m c)
    (Cert.KernelHost.normGraph m c), Cert.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨hH, hG, hW, hB⟩ := Cert.Finite.reals_of_pre _ _ _ _ (hpre c)
  rw [(hagree c).1, (hagree c).2.1, (hagree c).2.2.1, (hagree c).2.2.2]
  refine (Cert.ReferenceIdeal.Read.val_main_v13_eq _ _ _ _).trans ?_
  rw [Cert.RefValue.result_eq]
  exact (Cert.FoldLaw.folded_eq_aggregated _ _ _ _ hH hW hB (Cert.NormGraph.normGraph_real _ hG)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
